-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000 : Shape := ⟨1, ![500000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S500000 32) (main_arg2 : IVec S500000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S500000 : Shape := ⟨1, ![500000]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S1x128 : Shape := ⟨2, ![1, 128]⟩
abbrev S10000x128 : Shape := ⟨2, ![10000, 128]⟩

abbrev nBuf : Space → Nat
  | .hbm => 21
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S500000, .i32⟩
  | .hbm, ⟨2, _⟩ => ⟨S500000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S500000, .i32⟩
  | .hbm, ⟨7, _⟩ => ⟨S500000, .i1⟩
  | .hbm, ⟨8, _⟩ => ⟨S_, .i32⟩
  | .hbm, ⟨9, _⟩ => ⟨S500000, .i32⟩
  | .hbm, ⟨10, _⟩ => ⟨S500000, .i32⟩
  | .hbm, ⟨11, _⟩ => ⟨S500000, .i32⟩
  | .hbm, ⟨12, _⟩ => ⟨S500000x1, .i32⟩
  | .hbm, ⟨13, _⟩ => ⟨S500000x128, .f32⟩
  | .hbm, ⟨14, _⟩ => ⟨S_, .f32⟩
  | .hbm, ⟨15, _⟩ => ⟨S100000x128, .f32⟩
  | .hbm, ⟨16, _⟩ => ⟨S500000x1, .i32⟩
  | .hbm, ⟨17, _⟩ => ⟨S100000x128, .f32⟩
  | .hbm, ⟨18, _⟩ => ⟨S128x128, .f32⟩
  | .hbm, ⟨19, _⟩ => ⟨S1x128, .f32⟩
  | .hbm, ⟨20, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v9) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S500000 : Shape := ⟨1, ![500000]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S1x128 : Shape := ⟨2, ![1, 128]⟩

abbrev nBuf : Space → Nat
  | .hbm => 23
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500000, .i32⟩
  | .hbm, ⟨2, _⟩ => ⟨S500000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S500000, .i32⟩
  | .hbm, ⟨7, _⟩ => ⟨S500000, .i1⟩
  | .hbm, ⟨8, _⟩ => ⟨S_, .i32⟩
  | .hbm, ⟨9, _⟩ => ⟨S500000, .i32⟩
  | .hbm, ⟨10, _⟩ => ⟨S500000, .i32⟩
  | .hbm, ⟨11, _⟩ => ⟨S500000, .i32⟩
  | .hbm, ⟨12, _⟩ => ⟨S500000x1, .i32⟩
  | .hbm, ⟨13, _⟩ => ⟨S500000x128, .f32⟩
  | .hbm, ⟨14, _⟩ => ⟨S_, .f32⟩
  | .hbm, ⟨15, _⟩ => ⟨S100000x128, .f32⟩
  | .hbm, ⟨16, _⟩ => ⟨S500000x1, .i32⟩
  | .hbm, ⟨17, _⟩ => ⟨S100000x128, .f32⟩
  | .hbm, ⟨18, _⟩ => ⟨S128x128, .f32⟩
  | .hbm, ⟨19, _⟩ => ⟨S100000x128, .f32⟩
  | .hbm, ⟨20, _⟩ => ⟨S1x128, .f32⟩
  | .hbm, ⟨21, _⟩ => ⟨S100000x128, .f32⟩
  | .hbm, ⟨22, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S100000x128_S128x128_S100000x128_1_0_0_1_n_n_wf : DotDims.WF S100000x128 S128x128 S100000x128 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.TileEntry.lean ====
/-
  One row tile of the node update, entry by entry.

  At each grid point the body holds a tile of 10000 rows of the aggregated features, the whole
  (already transposed) weight matrix and the bias as a single row, and stores the tile's product
  with the weights plus the bias broadcast down the rows.  Over the extended reals the narrowing of
  both operands to the 16-bit format is the identity and the multiply-accumulate into an all-zero
  accumulator is the plain sum over the contracted axis, so entry (p, q) of what is stored is
      ∑ k, a[p, k] * w[k, q]  +  b[0, q].
-/
import proofs.«116859_j6648609374330_1_alg».proof.Proof.Gen.KernelIdeal.Skeleton
import proofs.«116859_j6648609374330_1_alg».proof.Proof.LibDot2
import Idealize.ShloMosaic.Lib.ValueLayout

noncomputable section

open scoped BigOperators

namespace Cert.KernelIdeal.Tile

open Cert.KernelIdeal Cert.KernelIdeal.Gen Idealize.ShloMosaic Idealize.ShloMosaic.TcCoe
open Idealize.ShloMosaic.ValueIdx

/-- Entry (p, q) of the tile the body stores: row p of the feature tile against column q of the
    weights, summed over the 128 contracted coordinates, plus the bias row's entry q. -/
theorem stored_apply (a : FVec Ideal S10000x128 .f32) (w : FVec Ideal S128x128 .f32) (b : FVec Ideal S1x128 .f32)
    (p : Fin 10000) (q : Fin 128) :
    k0_pay1 (F := Ideal) a w b (ix2 p q)
      = (∑ k : Fin 128, a (ix2 p k) * w (ix2 k q)) + b (ix2 (0 : Fin 1) q) := by
  show addf (matmul dot_S10000x128_S128x128_S10000x128_1_0_0_1_n_n none
        (truncf .bf16 (shapeCast S10000x128 a shapeCasts_S10000x128_S10000x128) bitsLt_bf16_f32)
        (truncf .bf16 (shapeCast S128x128 w shapeCasts_S128x128_S128x128) bitsLt_bf16_f32)
        (constant S10000x128 .f32 0x00000000#32))
      (broadcastTo S10000x128 (shapeCast S1x128 b shapeCasts_S1x128_S1x128) broadcasts_S1x128_S10000x128)
      (ix2 p q) = _
  simp only [shapeCast_self]
  rw [ValueIdx.addf_apply, broadcastTo_1b_ab_apply]
  refine congrArg (· + b (ix2 (0 : Fin 1) q)) ?_
  exact Dot2.matmul_zero_mm_apply dot_S10000x128_S128x128_S10000x128_1_0_0_1_n_n_wf none
    (truncf .bf16 a bitsLt_bf16_f32) (truncf .bf16 w bitsLt_bf16_f32) p q

end Cert.KernelIdeal.Tile

end
-- ==== Proof.NodeUpdate.lean ====
/-
  The dense node update as one function of its operands.

  After message passing every node carries a 128-vector of aggregated features; the update applies
  one linear layer to every node: with  agg : [100000, 128],  wt : [128, 128]  (the weights already
  transposed, so that the contracted axis is wt's first) and the bias  b : [128],
      out[p, q] = ∑ k, agg[p, k] * wt[k, q]  +  b[q]
  over the extended reals.  Both programs compute this array; how agg is obtained from the
  features and the edge lists is the same chain of host operations in both and is never opened.
-/
import Idealize.ShloMosaic.PureOps.Ideal
import Idealize.ShloMosaic.Lib.ValueIdx

noncomputable section

open scoped BigOperators

namespace Cert.NodeUpdate

open Idealize.ShloMosaic Idealize.ShloMosaic.ValueIdx

/-- Entry (p, q) of the update: node p's aggregated features against column q of the transposed
    weights, plus the bias at q. -/
def entry (agg : FVec Ideal ⟨2, ![100000, 128]⟩ .f32) (wt : FVec Ideal ⟨2, ![128, 128]⟩ .f32)
    (b : FVec Ideal ⟨1, ![128]⟩ .f32) (p : Fin 100000) (q : Fin 128) : EReal :=
  (∑ k : Fin 128, agg (ix2 p k) * wt (ix2 k q)) + b (ix1 q)

/-- The whole updated array. -/
def linear (agg : FVec Ideal ⟨2, ![100000, 128]⟩ .f32) (wt : FVec Ideal ⟨2, ![128, 128]⟩ .f32)
    (b : FVec Ideal ⟨1, ![128]⟩ .f32) : FVec Ideal ⟨2, ![100000, 128]⟩ .f32 :=
  fun i => entry agg wt b ⟨(i 0).val, (i 0).isLt⟩ ⟨(i 1).val, (i 1).isLt⟩

theorem linear_apply (agg : FVec Ideal ⟨2, ![100000, 128]⟩ .f32) (wt : FVec Ideal ⟨2, ![128, 128]⟩ .f32)
    (b : FVec Ideal ⟨1, ![128]⟩ .f32) (p : Fin 100000) (q : Fin 128) :
    linear agg wt b (ix2 p q) = entry agg wt b p q := rfl

end Cert.NodeUpdate

end
-- ==== Proof.KernelArray.lean ====
/-
  The kernel's result array as the node update of what the region finds.

  The region runs over ten grid points; point t takes rows 10000·t … 10000·t + 9999 of the
  aggregated features (all 128 columns), the whole transposed weight matrix and the bias row, and
  writes back rows 10000·t … 10000·t + 9999 of the result.  An entry of a tile depends only on the
  same row of the features, so tile t of the result is tile t of the node update of the whole
  arrays; the ten tiles cover all 100000 rows, so the result array IS the node update.

  Before the region the host computes the three arrays it reads: the aggregated features (gather
  of the source rows, scatter-add onto the destination rows — carried here as one function
  aggregate of the three arguments and never opened), the transpose of the weights, and the bias
  recast as one row.
-/
import proofs.«116859_j6648609374330_1_alg».proof.Proof.Gen.KernelIdeal.Value
import proofs.«116859_j6648609374330_1_alg».proof.Proof.TileEntry
import proofs.«116859_j6648609374330_1_alg».proof.Proof.NodeUpdate
import Idealize.ShloMosaic.Lib.Pipeline.Value
import Idealize.ShloMosaic.Lib.StableHlo.Run
import Idealize.ShloMosaic.Lib.ValueLayout

noncomputable section

open scoped BigOperators

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## What the host leaves for the region -/

/-- Message passing as one function of the features and the two edge lists: negative source
    indices wrapped, the source rows gathered, and added onto the destination rows of a zero array. -/
def aggregate (x0 : (⟨S100000x128, .f32⟩ : BufTy).Contents (Elt Ideal)) (x1 x2 : (⟨S500000, .i32⟩ : BufTy).Contents (Elt Ideal)) :
    (⟨S100000x128, .f32⟩ : BufTy).Contents (Elt Ideal) :=
  Host.scatterAdd scatter_S100000x128_S500000x1_S500000x128_1_0_0_1
    (broadcastInDim S100000x128 ![] bcast_S_S100000x128 (constant (F := Ideal) S_ .f32 0x00000000#32))
    (broadcastInDim S500000x1 ![0] bcast_S500000_S500000x1_0 x2)
    (Host.gather gather_S100000x128_S500000x1_S500000x128_1_0_n_n_0_1_1128 x0
      (broadcastInDim S500000x1 ![0] bcast_S500000_S500000x1_0
        (select (cmpi .slt x1 (broadcastInDim S500000 ![] bcast_S_S500000 (constantI S_ 32 0#32)))
          (addi x1 (broadcastInDim S500000 ![] bcast_S_S500000 (constantI S_ 32 100000#32))) x1)))

/-- The region's first operand is the aggregated features of the launch arguments. -/
theorem V_agg (c : Dev nD) : (V m c main_v9 : S100000x128.Idx → EReal)
    = aggregate (m ((c : Thread nD τ).loc main_arg0)) (m ((c : Thread nD τ).loc main_arg1)) (m ((c : Thread nD τ).loc main_arg2)) := by
  dsimp only [Gen.V, Gen.hostOps0]
  after_results <;> rfl

/-- Its second operand is the transposed weight matrix. -/
theorem V_wt (c : Dev nD) : (V m c main_v10 : S128x128.Idx → EReal)
    = transpose S128x128 [1, 0] (m ((c : Thread nD τ).loc main_arg3)) transposes_S128x128_S128x128_1_0 := by
  dsimp only [Gen.V, Gen.hostOps0]
  after_results <;> rfl

/-- Its third operand is the bias recast as one row. -/
theorem V_bias (c : Dev nD) : (V m c main_v11 : S1x128.Idx → EReal)
    = shapeCast S1x128 (m ((c : Thread nD τ).loc main_arg4)) shapeCasts_S128_S1x128 := by
  dsimp only [Gen.V, Gen.hostOps0]
  after_results <;> rfl

/-! ## The windows' blocks at a grid point -/

theorem hz : (![0, 0] : Fin 2 → Nat) = fun _ => 0 := funext fun a => by fin_cases a <;> rfl

/-- The printed index maps over the ten points: the feature window and the result window sit at
    tile t of the row axis; the weight window and the bias window stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 10 := by
  have h : t.val < grid0.N := t.isLt
  rw [N_0] at h
  exact h

/-- Row p of the feature tile at point t is row 10000·t + p of the aggregated features. -/
theorem feat_tile (c : Dev nD) (t : Fin cfg0.N) (p : Fin 10000) (k : Fin 128) (h : t.val * 10000 + p.val < 100000) :
    (iblk m c 0 t : FVec Ideal S10000x128 .f32) (ix2 p k)
      = (V m c main_v9 : FVec Ideal S100000x128 .f32) (ix2 ⟨t.val * 10000 + p.val, h⟩ k) := by
  obtain ⟨e0, e1, -⟩ := idx_facts t
  unfold iblk
  rw [View.read_apply]
  show V m c main_v9 _ = V m c main_v9 _
  refine congrArg (V m c main_v9) (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 128 + 1 * k.val = k.val; rw [e1]; omega

/-- The weight window's one block is the whole transposed weight matrix, at every point. -/
theorem wt_tile (c : Dev nD) (t : Fin cfg0.N) (k q : Fin 128) :
    (iblk m c 1 t : FVec Ideal S128x128 .f32) (ix2 k q) = (V m c main_v10 : FVec Ideal S128x128 .f32) (ix2 k q) := by
  obtain ⟨-, -, e2, e3, -⟩ := idx_facts t
  unfold iblk
  rw [View.read_apply]
  show V m c main_v10 _ = V m c main_v10 _
  refine congrArg (V m c main_v10) (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- The bias window's one block is the whole bias row, at every point. -/
theorem bias_tile (c : Dev nD) (t : Fin cfg0.N) (q : Fin 128) :
    (iblk m c 2 t : FVec Ideal S1x128 .f32) (ix2 (0 : Fin 1) q) = (V m c main_v11 : FVec Ideal S1x128 .f32) (ix2 (0 : Fin 1) q) := by
  obtain ⟨-, -, -, -, e4, e5, -⟩ := idx_facts t
  unfold iblk
  rw [View.read_apply]
  show V m c main_v11 _ = V m c main_v11 _
  refine congrArg (V m c main_v11) (funext fun a => Fin.ext ?_)
  match a with
  | ⟨0, _⟩ => show win0_2.index t (0 : Fin 2) * 1 + 1 * 0 = 0; rw [e4]
  | ⟨1, _⟩ => show win0_2.index t (1 : Fin 2) * 128 + 1 * q.val = q.val; rw [e5]; omega

end Cert.KernelIdeal.Whole

end
-- ==== Proof.KernelResult.lean ====
/-
  The kernel's run, read: its result array is the node update of the launch arguments.

  Tile t of what the ten grid points write back is tile t of the node update of the arrays the
  region finds (entry (p, q) of the stored tile is row 10000·t + p of the aggregated features
  against column q of the transposed weights, plus the bias at q); row r of the result lies in the
  tile of point r / 10000, so the tiles cover the array and it ends holding the node update.  The
  arrays the region finds are then replaced by what the host computed them from.
-/
import proofs.«116859_j6648609374330_1_alg».proof.Proof.KernelArray

noncomputable section

open scoped BigOperators

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The node update of the arrays as the region finds them, the bias read from the launch
    argument. -/
abbrev found (c : Dev nD) : FVec Ideal S100000x128 .f32 :=
  NodeUpdate.linear (V m c main_v9) (V m c main_v10) (m ((c : Thread nD τ).loc main_arg4))

/-- What point t writes back is tile t of found. -/
theorem flushed_eq (c : Dev nD) (t : Fin cfg0.N) :
    (dats m 0 c).flushed 3 t = ((cfg0.win 3).blk t).view.read (Elt Ideal) (found m c) := by
  rw [Value.flushed3]
  unfold out0_3
  rw [View.canon_unit_zero hz]
  simp only [View.ld_unit_zero (S := S10000x128) hz, View.ld_unit_zero (S := S128x128) hz, View.ld_unit_zero (S := S1x128) hz]
  funext y
  obtain ⟨p, q, rfl⟩ : ∃ (p : Fin 10000) (q : Fin 128), y = ix2 p q := ⟨y 0, y 1, eq_ix2 y⟩
  obtain ⟨-, -, -, -, -, -, e6, e7⟩ := idx_facts t
  have ht : t.val < 10 := point_lt t
  have hrow : t.val * 10000 + p.val < 100000 := by have := p.isLt; omega
  have hemb : ((cfg0.win 3).blk t).view.emb (ix2 p q) = ix2 ⟨t.val * 10000 + p.val, hrow⟩ q := by
    funext a; apply Fin.ext
    match a with
    | ⟨0, _⟩ => show win0_3.index t (0 : Fin 2) * 10000 + 1 * p.val = t.val * 10000 + p.val; rw [e6]; omega
    | ⟨1, _⟩ => show win0_3.index t (1 : Fin 2) * 128 + 1 * q.val = q.val; rw [e7]; omega
  show k0_pay1 (iblk m c 0 t) (iblk m c 1 t) (iblk m c 2 t) (ix2 p q) = found m c (((cfg0.win 3).blk t).view.emb (ix2 p q))
  rw [hemb]
  refine (Tile.stored_apply (iblk m c 0 t) (iblk m c 1 t) (iblk m c 2 t) p q).trans ?_
  show _ = NodeUpdate.entry (V m c main_v9) (V m c main_v10) (m ((c : Thread nD τ).loc main_arg4)) ⟨t.val * 10000 + p.val, hrow⟩ q
  unfold NodeUpdate.entry
  rw [bias_tile m c t q, V_bias m c, shapeCast_a_1a_apply]
  refine congrArg (· + m ((c : Thread nD τ).loc main_arg4) (ix1 q)) (Finset.sum_congr rfl fun k _ => ?_)
  rw [feat_tile m c t p k hrow, wt_tile m c t k q]

/-- An index of the result array is in point t's tile iff each coordinate is in the tile's range. -/
theorem mem_tile (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v12).slice (win0_3.rect t)).set ↔ _
  rw [View.set_slice_whole, Rect.mem_set_unit]
  exact Iff.rfl

/-- Row r of the result lies in the tile of point r / 10000: the ten tiles cover the array. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, by show _ < grid0.N; rw [N_0]; omega⟩, rfl⟩
  obtain ⟨-, -, -, -, -, -, e6, e7⟩ := idx_facts t
  refine ⟨t, flush0_3 t, ?_⟩
  rw [mem_tile]
  intro a
  match a with
  | ⟨0, _⟩ =>
    show win0_3.index t (0 : Fin 2) * 10000 ≤ (i 0).val ∧ (i 0).val < win0_3.index t (0 : Fin 2) * 10000 + 10000
    rw [e6, ht]; omega
  | ⟨1, _⟩ =>
    show win0_3.index t (1 : Fin 2) * 128 ≤ (i 1).val ∧ (i 1).val < win0_3.index t (1 : Fin 2) * 128 + 128
    rw [e7]; omega

/-- After the ten points the result array holds found. -/
theorem final_found (c : Dev nD) : (dats m 0 c).arrAt 3 cfg0.N = found m c :=
  (dats m 0 c).arrAt_eq_of_cover 3 (found m c) (fun t _ => flushed_eq m c t) covered

/-- The node update of the launch arguments: the features aggregated along the edges, the weights
    transposed, the bias. -/
abbrev result (c : Dev nD) : FVec Ideal S100000x128 .f32 :=
  NodeUpdate.linear
    (aggregate (m ((c : Thread nD τ).loc main_arg0)) (m ((c : Thread nD τ).loc main_arg1)) (m ((c : Thread nD τ).loc main_arg2)))
    (transpose S128x128 [1, 0] (m ((c : Thread nD τ).loc main_arg3)) transposes_S128x128_S128x128_1_0)
    (m ((c : Thread nD τ).loc main_arg4))

/-- found is result: the region's operands are what the host computed from the arguments. -/
theorem found_eq (c : Dev nD) : found m c = result m c := by
  show NodeUpdate.linear (V m c main_v9) (V m c main_v10) _ = NodeUpdate.linear _ _ _
  rw [V_agg m c, V_wt m c]

/-- The run, read: the result array at the node update of the arguments, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final_found m c).trans (found_eq m c)), (h c).2⟩)
    (Value.run_blocks m ρ)

end Cert.KernelIdeal.Whole

end
-- ==== Proof.ReferenceResult.lean ====
/-
  The reference's result is the node update of its own aggregated features.

  The reference ends with  agg · Wᵀ + b : the host's product of the aggregated features with the
  transposed weights, plus the bias broadcast first to one row and then down all 100000 rows.  At
  entry (p, q) the product is the sum over the contracted coordinate k of agg[p, k] * wt[k, q],
  and the twice-broadcast bias is b[q].  The aggregation and the transpose are left as the stages
  that produce them.
-/
import proofs.«116859_j6648609374330_1_alg».proof.Proof.Gen.ReferenceIdeal.Read
import proofs.«116859_j6648609374330_1_alg».proof.Proof.NodeUpdate

noncomputable section

open scoped BigOperators

namespace Cert.ReferenceIdeal.Whole

open Cert.ReferenceIdeal Cert.ReferenceIdeal.Gen Cert.ReferenceIdeal.Read Idealize.ShloMosaic Idealize.ShloMosaic.TcCoe
open Idealize.ShloMosaic.ValueIdx

/-- The product's left factor at (p, q) and contracted coordinate k sits at (p, k). -/
theorem left_index (p : Fin 100000) (q k : Fin 128) : lidx_main_v11 (ix2 p q) k = ix2 p k :=
  funext fun a => Fin.ext (by match a with | ⟨0, _⟩ => rfl | ⟨1, _⟩ => rfl)

/-- Its right factor sits at (k, q). -/
theorem right_index (p : Fin 100000) (q k : Fin 128) : ridx_main_v11 (ix2 p q) k = ix2 k q :=
  funext fun a => Fin.ext (by match a with | ⟨0, _⟩ => rfl | ⟨1, _⟩ => rfl)

/-- The bias, broadcast to a row and then down the rows, is read at the column. -/
theorem bias_index (p : Fin 100000) (q : Fin 128) : idx_main_v12 (idx_main_v13 (ix2 p q)) = ix1 q :=
  funext fun a => Fin.ext (by match a with | ⟨0, _⟩ => rfl)

/-- The reference's last stage is the node update of its aggregation stage, its transpose stage
    and the bias argument. -/
theorem result_eq (x0 : (⟨S100000x128, .f32⟩ : BufTy).Contents (Elt Ideal)) (x1 x2 : (⟨S500000, .i32⟩ : BufTy).Contents (Elt Ideal))
    (x3 : (⟨S128x128, .f32⟩ : BufTy).Contents (Elt Ideal)) (x4 : (⟨S128, .f32⟩ : BufTy).Contents (Elt Ideal)) :
    val_main_v14 (F := Ideal) x0 x1 x2 x3 x4
      = NodeUpdate.linear (val_main_v9 (F := Ideal) x0 x1 x2) (val_main_v10 (F := Ideal) x3) x4 := by
  funext i
  obtain ⟨p, q, rfl⟩ : ∃ (p : Fin 100000) (q : Fin 128), i = ix2 p q := ⟨i 0, i 1, eq_ix2 i⟩
  rw [NodeUpdate.linear_apply]
  unfold NodeUpdate.entry
  rw [val_main_v14_apply, val_main_v11_apply, val_main_v13_apply, val_main_v12_apply, bias_index]
  simp only [left_index, right_index]
  rfl

end Cert.ReferenceIdeal.Whole

end
-- ==== Proof.lean ====
/-
  One graph-convolution layer: sum the source features along the edges onto the destination nodes,
  then apply a linear layer to every node,
      out = agg · Wᵀ + b,    agg[i] = ∑ over edges (j → i) of feat[j].

  Both programs do the message passing with the same host operations (wrap negative source
  indices, gather the source rows, scatter-add onto a zero array), so the aggregated features are
  one and the same function of the three arguments and are never opened.  They differ only in the
  dense update: the kernel transposes W and recasts b as one row on the host, then walks the
  100000 rows in ten tiles of 10000, each tile a multiply-accumulate of 16-bit-narrowed operands
  into a zero accumulator plus the broadcast bias row; the reference takes one whole product and
  adds the bias broadcast twice.  Over the extended reals narrowing is the identity and both
  products are the plain sum over the 128 contracted coordinates, so entry (p, q) of either result
  is  ∑ k, agg[p, k] * Wᵀ[k, q] + b[q]  (NodeUpdate.linear).  The two sides are this sum term for
  term, in the same order, so no law of the extended reals that fails at the infinities is needed
  and finiteness of the inputs is not used.

  The kernel's run read as this array: KernelResult (over TileEntry, KernelArray and the blockwise
  value leg).  The reference's: ReferenceResult (over its run read stage by stage).  The three
  frames are the generated ones; nothing was idealized beyond reading the text at the extended
  reals, so the preservation conjunct is trivial.
-/
import proofs.«116859_j6648609374330_1_alg».proof.Defs
import proofs.«116859_j6648609374330_1_alg».proof.Proof.Gen.Kernel
import proofs.«116859_j6648609374330_1_alg».proof.Proof.Gen.Kernel.Skeleton
import proofs.«116859_j6648609374330_1_alg».proof.Proof.Gen.Kernel.Launch
import proofs.«116859_j6648609374330_1_alg».proof.Proof.Gen.Kernel.Points
import proofs.«116859_j6648609374330_1_alg».proof.Proof.Gen.Kernel.Frame
import proofs.«116859_j6648609374330_1_alg».proof.Proof.Gen.KernelIdeal
import proofs.«116859_j6648609374330_1_alg».proof.Proof.Gen.KernelIdeal.Skeleton
import proofs.«116859_j6648609374330_1_alg».proof.Proof.Gen.KernelIdeal.Launch
import proofs.«116859_j6648609374330_1_alg».proof.Proof.Gen.KernelIdeal.Points
import proofs.«116859_j6648609374330_1_alg».proof.Proof.Gen.KernelIdeal.Frame
import proofs.«116859_j6648609374330_1_alg».proof.Proof.Gen.ReferenceIdeal
import proofs.«116859_j6648609374330_1_alg».proof.Proof.Gen.Pre_finite_inputs
import proofs.«116859_j6648609374330_1_alg».proof.Proof.Gen.KernelIdeal.Value
import proofs.«116859_j6648609374330_1_alg».proof.Proof.Gen.ReferenceIdeal.Run
import proofs.«116859_j6648609374330_1_alg».proof.Proof.Gen.ReferenceIdeal.Read
import proofs.«116859_j6648609374330_1_alg».proof.Proof.KernelResult
import proofs.«116859_j6648609374330_1_alg».proof.Proof.ReferenceResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The reference's aggregation stage is the kernel's aggregate: the same host operations on the
    same arguments. -/
theorem aggregate_same (x0 : (⟨Cert.ReferenceIdeal.S100000x128, .f32⟩ : BufTy).Contents (Elt Ideal))
    (x1 x2 : (⟨Cert.ReferenceIdeal.S500000, .i32⟩ : BufTy).Contents (Elt Ideal)) :
    Cert.ReferenceIdeal.Read.val_main_v9 (F := Ideal) x0 x1 x2 = Cert.KernelIdeal.Whole.aggregate x0 x1 x2 := rfl

/-- Both programs transpose the weights the same way. -/
theorem transpose_same (x3 : (⟨Cert.ReferenceIdeal.S128x128, .f32⟩ : BufTy).Contents (Elt Ideal)) :
    Cert.ReferenceIdeal.Read.val_main_v10 (F := Ideal) x3
      = transpose Cert.KernelIdeal.S128x128 [1, 0] x3 Cert.KernelIdeal.Facts₀.transposes_S128x128_S128x128_1_0 := rfl

/-- From memories that agree on the five arguments both programs end with the node update of the
    aggregated features, the transposed weights and the bias. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Whole.result_eq, aggregate_same, transpose_same,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
